-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S1536x1024 : Shape := ⟨2, ![1536, 1024]⟩
abbrev S1024 : Shape := ⟨1, ![1024]⟩
abbrev S1536x512 : Shape := ⟨2, ![1536, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_
  bcast_S_S1536x512 : S_.BroadcastsInDim S1536x512 (![] : Fin 0 → Fin S1536x512.rank)
  reducesTo_S1536x512_S_d0_1 : S1536x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S1536x512 .f32) (main_arg8 : FVec F S512 .f32) (main_arg9 : FVec F S1536x512 .f32) (main_arg10 : FVec F S512 .f32) (main_v33 : IVec S_ 1) : IVec S_ 1 :=
  let main_v34 : FVec F S1536x512 .f32 := Host.absf main_arg7
  let main_cst_12 : FVec F S_ .f32 := constant S_ .f32 0x7F800000#32
  let main_v35 : FVec F S1536x512 .f32 := broadcastInDim S1536x512 ![] bcast_S_S1536x512 main_cst_12
  let main_v36 : IVec S1536x512 1 := cmpf .olt main_v34 main_v35
  let main_c_13 : IVec S_ 1 := constantI S_ 1 1#1
  let main_v37 : IVec S_ 1 := (fun x v => Host.reduce IntOp.andi x v reducesTo_S1536x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1536x512 .f32 := Host.absf main_arg9
  let main_cst_16 : FVec F S_ .f32 := constant S_ .f32 0x7F800000#32
  let main_v45 : FVec F S1536x512 .f32 := broadcastInDim S1536x512 ![] bcast_S_S1536x512 main_cst_16
  let main_v46 : IVec S1536x512 1 := cmpf .olt main_v44 main_v45
  let main_c_17 : IVec S_ 1 := constantI S_ 1 1#1
  let main_v47 : IVec S_ 1 := (fun x v => Host.reduce IntOp.andi x v reducesTo_S1536x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S1024 .f32) (main_arg5 : FVec F S1536x1024 .f32) (main_arg6 : FVec F S1024 .f32) (main_arg7 : FVec F S1536x512 .f32) (main_arg8 : FVec F S512 .f32) (main_arg9 : FVec F S1536x512 .f32) (main_arg10 : FVec F S512 .f32) (main_v13 : IVec S_ 1) (main_v16 : IVec S1536x1024 1) : IVec S_ 1 :=
  let main_c_5 : IVec S_ 1 := constantI S_ 1 1#1
  let main_v17 : IVec S_ 1 := (fun x v => Host.reduce IntOp.andi x v reducesTo_S1536x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1536x1024 .f32 := Host.absf main_arg5
  let main_cst_8 : FVec F S_ .f32 := constant S_ .f32 0x7F800000#32
  let main_v25 : FVec F S1536x1024 .f32 := broadcastInDim S1536x1024 ![] bcast_S_S1536x1024 main_cst_8
  let main_v26 : IVec S1536x1024 1 := cmpf .olt main_v24 main_v25
  let main_c_9 : IVec S_ 1 := constantI S_ 1 1#1
  let main_v27 : IVec S_ 1 := (fun x v => Host.reduce IntOp.andi x v reducesTo_S1536x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x1024 .f32) (main_arg2 : FVec F S16384x1024 .f32) (main_arg3 : FVec F S1536x1024 .f32) (main_arg4 : FVec F S1024 .f32) (main_arg5 : FVec F S1536x1024 .f32) (main_arg6 : FVec F S1024 .f32) (main_arg7 : FVec F S1536x512 .f32) (main_arg8 : FVec F S512 .f32) (main_arg9 : FVec F S1536x512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1536x1024 .f32 := Host.absf main_arg3
  let main_cst_4 : FVec F S_ .f32 := constant S_ .f32 0x7F800000#32
  let main_v15 : FVec F S1536x1024 .f32 := broadcastInDim S1536x1024 ![] bcast_S_S1536x1024 main_cst_4
  let main_v16 : IVec S1536x1024 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S16384x1024 : Shape := ⟨2, ![16384, 1024]⟩
abbrev S1536x1024 : Shape := ⟨2, ![1536, 1024]⟩
abbrev S1024 : Shape := ⟨1, ![1024]⟩
abbrev S1536x512 : Shape := ⟨2, ![1536, 512]⟩
abbrev S512 : Shape := ⟨1, ![512]⟩
abbrev S512x1024 : Shape := ⟨2, ![512, 1024]⟩
abbrev S1024x1024 : Shape := ⟨2, ![1024, 1024]⟩
abbrev S512x512 : Shape := ⟨2, ![512, 512]⟩
abbrev S1024x512 : Shape := ⟨2, ![1024, 512]⟩
abbrev S1x1024 : Shape := ⟨2, ![1, 1024]⟩
abbrev S1x512 : Shape := ⟨2, ![1, 512]⟩
abbrev S256x512 : Shape := ⟨2, ![256, 512]⟩
abbrev S256x1024 : Shape := ⟨2, ![256, 1024]⟩

abbrev nBuf : Space → Nat
  | .hbm => 34
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1536x1024, .f32⟩
  | .hbm, ⟨4, _⟩ => ⟨S1024, .f32⟩
  | .hbm, ⟨5, _⟩ => ⟨S1536x1024, .f32⟩
  | .hbm, ⟨6, _⟩ => ⟨S1024, .f32⟩
  | .hbm, ⟨7, _⟩ => ⟨S1536x512, .f32⟩
  | .hbm, ⟨8, _⟩ => ⟨S512, .f32⟩
  | .hbm, ⟨9, _⟩ => ⟨S1536x512, .f32⟩
  | .hbm, ⟨10, _⟩ => ⟨S512, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S512x512, .f32⟩
  | .hbm, ⟨20, _⟩ => ⟨S512x512, .bf16⟩
  | .hbm, ⟨21, _⟩ => ⟨S1024x512, .f32⟩
  | .hbm, ⟨22, _⟩ => ⟨S1024x512, .bf16⟩
  | .hbm, ⟨23, _⟩ => ⟨S512x512, .f32⟩
  | .hbm, ⟨24, _⟩ => ⟨S512x512, .bf16⟩
  | .hbm, ⟨25, _⟩ => ⟨S1024x512, .f32⟩
  | .hbm, ⟨26, _⟩ => ⟨S1024x512, .bf16⟩
  | .hbm, ⟨27, _⟩ => ⟨S1x1024, .f32⟩
  | .hbm, ⟨28, _⟩ => ⟨S1x1024, .f32⟩
  | .hbm, ⟨29, _⟩ => ⟨S1x512, .f32⟩
  | .hbm, ⟨30, _⟩ => ⟨S1x512, .f32⟩
  | .hbm, ⟨31, _⟩ => ⟨S16384x512, .f32⟩
  | .hbm, ⟨32, _⟩ => ⟨S16384x1024, .f32⟩
  | .hbm, ⟨33, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x512, .bf16⟩
  | .local _ .vmem, ⟨13, _⟩ => ⟨S1024x512, .bf16⟩
  | .local _ .vmem, ⟨14, _⟩ => ⟨S1x512, .f32⟩
  | .local _ .vmem, ⟨15, _⟩ => ⟨S512x512, .bf16⟩
  | .local _ .vmem, ⟨16, _⟩ => ⟨S1024x512, .bf16⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S1536x1024_S512x1024_0_0 : S1536x1024.Slices ![0, 0] S512x1024
  bitsLt_bf16_f32 : FTy.bits .bf16 < FTy.bits .f32
  slices_S1536x1024_S1024x1024_512_0 : S1536x1024.Slices ![512, 0] S1024x1024
  slices_S1536x512_S512x512_0_0 : S1536x512.Slices ![0, 0] S512x512
  slices_S1536x512_S1024x512_512_0 : S1536x512.Slices ![512, 0] S1024x512
  shapeCasts_S1024_S1x1024 : S1024.ShapeCasts S1x1024
  shapeCasts_S512_S1x512 : S512.ShapeCasts S1x512
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x512_S512x1024_S256x1024_1_0_0_1_n_n_wf : DotDims.WF S256x512 S512x1024 S256x1024 [1] [0] [0] [1] [] []
  dot_S256x1024_S1024x1024_S256x1024_1_0_0_1_n_n_wf : DotDims.WF S256x1024 S1024x1024 S256x1024 [1] [0] [0] [1] [] []
  dot_S256x512_S512x512_S256x512_1_0_0_1_n_n_wf : DotDims.WF S256x512 S512x512 S256x512 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S1024x512.size a
  hwx0_13 : ∀ i : grid0.Coords, EltTy.bits .bf16 = 32 ∨ (Rect.block (s := S1024x512) S1024x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S16384x512.size a
  hwx0_15 : ∀ i : grid0.Coords, EltTy.bits .f32 = 32 ∨ (Rect.block (s := S16384x512) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S16384x1024.size a
  hwx0_16 : ∀ i : grid0.Coords, EltTy.bits .f32 = 32 ∨ (Rect.block (s := S16384x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S16384x1024.size a
  hwx0_17 : ∀ i : grid0.Coords, EltTy.bits .f32 = 32 ∨ (Rect.block (s := S16384x1024) S256x1024.size (cc0_transform_17 i) (hinb0_17 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1024x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20_0) S256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v20_1) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v20_2) S256x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S1536x1024 : Shape := ⟨2, ![1536, 1024]⟩
abbrev S1024 : Shape := ⟨1, ![1024]⟩
abbrev S1536x512 : Shape := ⟨2, ![1536, 512]⟩
abbrev S512 : Shape := ⟨1, ![512]⟩
abbrev S16384x1536 : Shape := ⟨2, ![16384, 1536]⟩
abbrev S1x1024 : Shape := ⟨2, ![1, 1024]⟩
abbrev S_ : Shape := ⟨0, ![]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1536x1024, .f32⟩
  | .hbm, ⟨4, _⟩ => ⟨S1024, .f32⟩
  | .hbm, ⟨5, _⟩ => ⟨S1536x1024, .f32⟩
  | .hbm, ⟨6, _⟩ => ⟨S1024, .f32⟩
  | .hbm, ⟨7, _⟩ => ⟨S1536x512, .f32⟩
  | .hbm, ⟨8, _⟩ => ⟨S512, .f32⟩
  | .hbm, ⟨9, _⟩ => ⟨S1536x512, .f32⟩
  | .hbm, ⟨10, _⟩ => ⟨S512, .f32⟩
  | .hbm, ⟨11, _⟩ => ⟨S16384x1536, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .i1⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1536, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  concatenates_S16384x512_S16384x1024_S16384x1536_d1 : Shape.Concatenates [S16384x512, S16384x1024] S16384x1536 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x1536_S1536x1024_S16384x1024_1_0_0_1_n_n_wf : DotDims.WF S16384x1536 S1536x1024 S16384x1024 [1] [0] [0] [1] [] []
  dot_S16384x1536_S1536x512_S16384x512_1_0_0_1_n_n_wf : DotDims.WF S16384x1536 S1536x512 S16384x512 [1] [0] [0] [1] [] []

variable [Facts₀]

def dot_S16384x1536_S1536x1024_S16384x1024_1_0_0_1_n_n : DotDims S16384x1536 S1536x1024 S16384x1024 where
  lhsContracting := [1]
  rhsContracting := [0]
  lhsNonContracting := [0]
  rhsNonContracting := [1]
  lhsBatch := []
  rhsBatch := []
  wf := dot_S16384x1536_S1536x1024_S16384x1024_1_0_0_1_n_n_wf
def dot_S16384x1536_S1536x512_S16384x512_1_0_0_1_n_n : DotDims S16384x1536 S1536x512 S16384x512 where
  lhsContracting := [1]
  rhsContracting := [0]
  lhsNonContracting := [0]
  rhsNonContracting := [1]
  lhsBatch := []
  rhsBatch := []
  wf := dot_S16384x1536_S1536x512_S16384x512_1_0_0_1_n_n_wf

class Facts : Prop extends Facts₀ where

variable [Facts]
-- ==== Proof.GatedCell.lean ====
/-
  The gated recurrent cell of this certificate, one batch row at a time, on the extended reals.

  A row of the batch carries an input x (512 entries), a previous latent state h (1024 entries) and a
  noise g (1024 entries). Four dense layers act on the joined vector [x | h] (1536 entries); a layer
  with C outputs is given here by its columns: for output c the 512 weights that meet x, the 1024
  weights that meet the latent part, and the bias. With a = layer_g [x | h] and r = layer_r [x | h]:

      λ  = max (tanh (a − g)) 0                 the update gate
      Θ  = 1 where λ > 0, else 0                 the gate's indicator
      h' = λ · tanh r + (1 − λ) · h              the new latent state
      y  = tanh (layer_y [x | h']) · logistic (layer_o [x | h'])

  The only law used between two spellings of these formulas is that a sum over the 1536 joined
  entries is the sum over the first 512 plus the sum over the last 1024 (`sum_joined`): addition of
  extended reals is commutative and associative, so no finiteness is needed.
-/
import Idealize.ShloMosaic.PureOps.Ideal
import Idealize.ShloMosaic.Lib.ValueIdx

noncomputable section

open scoped BigOperators

namespace Cert.GatedCell

open Idealize.ShloMosaic Idealize.ShloMosaic.ValueIdx

/-- The f32 words the two programs both spell: zero and one, kept as words. -/
abbrev zeroW : EReal := Ideal.ofBits .f32 0x00000000#32
abbrev oneW : EReal := Ideal.ofBits .f32 0x3F800000#32

/-- A dense layer on [x | h] with `C` outputs, by columns: output `c` is
    Σₖ x k · wx c k + Σₖ h k · wh c k + b c. -/
structure Layer (C : Nat) where
  wx : Fin C → Fin 512 → EReal
  wh : Fin C → Fin 1024 → EReal
  b : Fin C → EReal

/-- One output of a dense layer on the joined vector [x | h]. -/
def Layer.app {C : Nat} (L : Layer C) (x : Fin 512 → EReal) (h : Fin 1024 → EReal) (c : Fin C) : EReal :=
  ((∑ k : Fin 512, x k * L.wx c k) + ∑ k : Fin 1024, h k * L.wh c k) + L.b c

/-- The update gate λ = max (tanh (a − g)) 0. -/
def gate (a g : EReal) : EReal := max (Ideal.tanh (a - g)) zeroW

/-- The gate's indicator: the one-bit answer to λ > 0, read as a number. -/
def indicator (l : EReal) : EReal := (((Ideal.cmp .ogt l zeroW).toNat : ℝ) : EReal)

/-- The blend λ · tanh r + (1 − λ) · h. -/
def blend (l r h : EReal) : EReal := l * Ideal.tanh r + (oneW - l) * h

/-- The update gate of a row, entry by entry. -/
def gateRow (Lg : Layer 1024) (x : Fin 512 → EReal) (h g : Fin 1024 → EReal) : Fin 1024 → EReal :=
  fun c => gate (Lg.app x h c) (g c)

/-- The indicator of a row's gate. -/
def indicatorRow (Lg : Layer 1024) (x : Fin 512 → EReal) (h g : Fin 1024 → EReal) : Fin 1024 → EReal :=
  fun c => indicator (gateRow Lg x h g c)

/-- The new latent state of a row. -/
def stateRow (Lg Lr : Layer 1024) (x : Fin 512 → EReal) (h g : Fin 1024 → EReal) : Fin 1024 → EReal :=
  fun c => blend (gateRow Lg x h g c) (Lr.app x h c) (h c)

/-- The output of a row: the two output layers read [x | h'] with h' the row's new latent state. -/
def outRow (Lg Lr : Layer 1024) (Ly Lo : Layer 512) (x : Fin 512 → EReal) (h g : Fin 1024 → EReal) : Fin 512 → EReal :=
  fun c => Ideal.tanh (Ly.app x (stateRow Lg Lr x h g) c) * Ideal.logistic (Lo.app x (stateRow Lg Lr x h g) c)

/-- A sum over the 1536 joined entries splits at 512: `u` is x on the first 512 and h on the rest,
    and `w` is any weight column. -/
theorem sum_joined (u w : Fin 1536 → EReal) :
    ∑ k : Fin 1536, u k * w k
      = (∑ k : Fin 512, u ⟨k.val, by omega⟩ * w ⟨k.val, by omega⟩)
        + ∑ k : Fin 1024, u ⟨512 + k.val, by omega⟩ * w ⟨512 + k.val, by omega⟩ := by
  exact Fin.sum_univ_add (a := 512) (b := 1024) fun k => u k * w k

/-! ## The cell over whole arrays

  The batch is the rows of X [16384, 512], H [16384, 1024] and G [16384, 1024]; a layer's weights are a
  [1536, C] matrix whose first 512 rows meet x and whose last 1024 rows meet the latent part, and a
  bias of C entries. Entry (r, c) of each result depends on row r of the batch only. -/

/-- Row `r` of a matrix. -/
def rowOf {R n : Nat} (A : (⟨2, ![R, n]⟩ : Shape).Idx → EReal) (r : Fin R) : Fin n → EReal :=
  fun k => A (ix2 r k)

/-- The layer of a [1536, C] weight matrix and a bias vector: rows 0 … 511 meet x, rows 512 … 1535 meet h. -/
def Layer.ofArrays {C : Nat} (W : (⟨2, ![1536, C]⟩ : Shape).Idx → EReal) (b : (⟨1, ![C]⟩ : Shape).Idx → EReal) :
    Layer C where
  wx c k := W (ix2 (⟨k.val, by omega⟩ : Fin 1536) c)
  wh c k := W (ix2 (⟨512 + k.val, by omega⟩ : Fin 1536) c)
  b c := b (ix1 c)

/-- The same layer given in three pieces: the [512, C] part that meets x, the [1024, C] part that meets h,
    and the bias as a one-row matrix. -/
def Layer.ofPieces {C : Nat} (wx : (⟨2, ![512, C]⟩ : Shape).Idx → EReal) (wh : (⟨2, ![1024, C]⟩ : Shape).Idx → EReal)
    (b : (⟨2, ![1, C]⟩ : Shape).Idx → EReal) : Layer C where
  wx c k := wx (ix2 k c)
  wh c k := wh (ix2 k c)
  b c := b (ix2 (0 : Fin 1) c)

section Arrays
variable (X : (⟨2, ![16384, 512]⟩ : Shape).Idx → EReal) (H G : (⟨2, ![16384, 1024]⟩ : Shape).Idx → EReal)
  (Wg : (⟨2, ![1536, 1024]⟩ : Shape).Idx → EReal) (bg : (⟨1, ![1024]⟩ : Shape).Idx → EReal)
  (Wr : (⟨2, ![1536, 1024]⟩ : Shape).Idx → EReal) (br : (⟨1, ![1024]⟩ : Shape).Idx → EReal)
  (Wy : (⟨2, ![1536, 512]⟩ : Shape).Idx → EReal) (by_ : (⟨1, ![512]⟩ : Shape).Idx → EReal)
  (Wo : (⟨2, ![1536, 512]⟩ : Shape).Idx → EReal) (bo : (⟨1, ![512]⟩ : Shape).Idx → EReal)

/-- The gate's indicator Θ over the batch. -/
def indicatorArr : (⟨2, ![16384, 1024]⟩ : Shape).Idx → EReal :=
  fun i => indicatorRow (Layer.ofArrays Wg bg) (rowOf X (i 0)) (rowOf H (i 0)) (rowOf G (i 0)) (i 1)

/-- The new latent state h' over the batch. -/
def stateArr : (⟨2, ![16384, 1024]⟩ : Shape).Idx → EReal :=
  fun i => stateRow (Layer.ofArrays Wg bg) (Layer.ofArrays Wr br) (rowOf X (i 0)) (rowOf H (i 0)) (rowOf G (i 0)) (i 1)

/-- The output y over the batch. -/
def outArr : (⟨2, ![16384, 512]⟩ : Shape).Idx → EReal :=
  fun i => outRow (Layer.ofArrays Wg bg) (Layer.ofArrays Wr br) (Layer.ofArrays Wy by_) (Layer.ofArrays Wo bo)
    (rowOf X (i 0)) (rowOf H (i 0)) (rowOf G (i 0)) (i 1)

end Arrays

end Cert.GatedCell

end
-- ==== Proof.BodyRows.lean ====
/-
  The kernel body's stored values, read one entry at a time, are the gated cell's row formulas
  (GatedCell.lean) of the rows of the blocks the body loads: a matrix product into a zero accumulator
  is a sum over the contracted coordinate, the one-row bias is laid along every row, a change of float
  format is the identity, and the widened comparison bit converted signed is the bit read unsigned.
-/
import proofs.«144852_j84018150245162_1_alg».proof.Proof.Gen.KernelIdeal.Skeleton
import proofs.«144852_j84018150245162_1_alg».proof.Proof.GatedCell
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GatedCell

/-! ### The input block against a [512, 1024] weight block -/

/-- The left factor is read at the output's row … -/
theorem lhs_x1024_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
/-- … and at the contracted coordinate; -/
theorem lhs_x1024_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
/-- the right factor is read at the contracted coordinate … -/
theorem rhs_x1024_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
/-- … and at the output's column. -/
theorem rhs_x1024_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- A [256, 512] by [512, 1024] product into the zero accumulator, at entry (p, q): the sum over the 512 contracted
    coordinates of row p of the left factor against column q of the right. -/
theorem matmul_x1024 (a : FVec Ideal S256x512 .bf16) (b : FVec Ideal S512x1024 .bf16) (p : Fin 256) (q : Fin 1024) :
    matmul (F := Ideal) dot_S256x512_S512x1024_S256x1024_1_0_0_1_n_n none a b (constant (F := Ideal) S256x1024 .f32 0x00000000#32) (ix2 p q)
      = ∑ k : Fin 512, a (ix2 p k) * b (ix2 k q) := by
  show FloatOps.matmul dot_S256x512_S512x1024_S256x1024_1_0_0_1_n_n none a b (constant (F := Ideal) S256x1024 .f32 0x00000000#32) (ix2 p q) = _
  rw [Ideal.matmul_constant_zero_apply, ← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 p q) ((contrEquiv1 dot_S256x512_S512x1024_S256x1024_1_0_0_1_n_n 512 rfl rfl).symm k) = ix2 p k := funext fun c => Fin.ext (by
    match c with
    | ⟨0, _⟩ => exact lhs_x1024_0 _ _
    | ⟨1, _⟩ => exact (lhs_x1024_1 _ _).trans hk)
  have er : dot_S256x512_S512x1024_S256x1024_1_0_0_1_n_n.rhsIdx (ix2 p q) ((contrEquiv1 dot_S256x512_S512x1024_S256x1024_1_0_0_1_n_n 512 rfl rfl).symm k) = ix2 k q := funext fun c => Fin.ext (by
    match c with
    | ⟨0, _⟩ => exact (rhs_x1024_0 _ _).trans hk
    | ⟨1, _⟩ => exact rhs_x1024_1 _ _)
  rw [el, er]

/-! ### The latent block against a [1024, 1024] weight block -/

/-- The left factor is read at the output's row … -/
theorem lhs_h1024_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- … and at the contracted coordinate; -/
theorem lhs_h1024_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- the right factor is read at the contracted coordinate … -/
theorem rhs_h1024_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- … and at the output's column. -/
theorem rhs_h1024_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256, 1024] by [1024, 1024] product into the zero accumulator, at entry (p, q): the sum over the 1024 contracted
    coordinates of row p of the left factor against column q of the right. -/
theorem matmul_h1024 (a : FVec Ideal S256x1024 .bf16) (b : FVec Ideal S1024x1024 .bf16) (p : Fin 256) (q : Fin 1024) :
    matmul (F := Ideal) dot_S256x1024_S1024x1024_S256x1024_1_0_0_1_n_n none a b (constant (F := Ideal) S256x1024 .f32 0x00000000#32) (ix2 p q)
      = ∑ k : Fin 1024, a (ix2 p k) * b (ix2 k q) := by
  show FloatOps.matmul dot_S256x1024_S1024x1024_S256x1024_1_0_0_1_n_n none a b (constant (F := Ideal) S256x1024 .f32 0x00000000#32) (ix2 p q) = _
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun c => Fin.ext (by
    match c with
    | ⟨0, _⟩ => exact lhs_h1024_0 _ _
    | ⟨1, _⟩ => exact (lhs_h1024_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun c => Fin.ext (by
    match c with
    | ⟨0, _⟩ => exact (rhs_h1024_0 _ _).trans hk
    | ⟨1, _⟩ => exact rhs_h1024_1 _ _)
  rw [el, er]

/-! ### The input block against a [512, 512] weight block -/

/-- The left factor is read at the output's row … -/
theorem lhs_x512_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
/-- … and at the contracted coordinate; -/
theorem lhs_x512_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
/-- the right factor is read at the contracted coordinate … -/
theorem rhs_x512_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
/-- … and at the output's column. -/
theorem rhs_x512_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- A [256, 512] by [512, 512] product into the zero accumulator, at entry (p, q): the sum over the 512 contracted
    coordinates of row p of the left factor against column q of the right. -/
theorem matmul_x512 (a : FVec Ideal S256x512 .bf16) (b : FVec Ideal S512x512 .bf16) (p : Fin 256) (q : Fin 512) :
    matmul (F := Ideal) dot_S256x512_S512x512_S256x512_1_0_0_1_n_n none a b (constant (F := Ideal) S256x512 .f32 0x00000000#32) (ix2 p q)
      = ∑ k : Fin 512, a (ix2 p k) * b (ix2 k q) := by
  show FloatOps.matmul dot_S256x512_S512x512_S256x512_1_0_0_1_n_n none a b (constant (F := Ideal) S256x512 .f32 0x00000000#32) (ix2 p q) = _
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p q) ((contrEquiv1 dot_S256x512_S512x512_S256x512_1_0_0_1_n_n 512 rfl rfl).symm k) = ix2 p k := funext fun c => Fin.ext (by
    match c with
    | ⟨0, _⟩ => exact lhs_x512_0 _ _
    | ⟨1, _⟩ => exact (lhs_x512_1 _ _).trans hk)
  have er : dot_S256x512_S512x512_S256x512_1_0_0_1_n_n.rhsIdx (ix2 p q) ((contrEquiv1 dot_S256x512_S512x512_S256x512_1_0_0_1_n_n 512 rfl rfl).symm k) = ix2 k q := funext fun c => Fin.ext (by
    match c with
    | ⟨0, _⟩ => exact (rhs_x512_0 _ _).trans hk
    | ⟨1, _⟩ => exact rhs_x512_1 _ _)
  rw [el, er]

/-! ### The latent block against a [1024, 512] weight block -/

/-- The left factor is read at the output's row … -/
theorem lhs_h512_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
/-- … and at the contracted coordinate; -/
theorem lhs_h512_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
/-- the right factor is read at the contracted coordinate … -/
theorem rhs_h512_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
/-- … and at the output's column. -/
theorem rhs_h512_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- A [256, 1024] by [1024, 512] product into the zero accumulator, at entry (p, q): the sum over the 1024 contracted
    coordinates of row p of the left factor against column q of the right. -/
theorem matmul_h512 (a : FVec Ideal S256x1024 .bf16) (b : FVec Ideal S1024x512 .bf16) (p : Fin 256) (q : Fin 512) :
    matmul (F := Ideal) dot_S256x1024_S1024x512_S256x512_1_0_0_1_n_n none a b (constant (F := Ideal) S256x512 .f32 0x00000000#32) (ix2 p q)
      = ∑ k : Fin 1024, a (ix2 p k) * b (ix2 k q) := by
  show FloatOps.matmul dot_S256x1024_S1024x512_S256x512_1_0_0_1_n_n none a b (constant (F := Ideal) S256x512 .f32 0x00000000#32) (ix2 p q) = _
  rw [Ideal.matmul_constant_zero_apply, ← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 p q) ((contrEquiv1 dot_S256x1024_S1024x512_S256x512_1_0_0_1_n_n 1024 rfl rfl).symm k) = ix2 p k := funext fun c => Fin.ext (by
    match c with
    | ⟨0, _⟩ => exact lhs_h512_0 _ _
    | ⟨1, _⟩ => exact (lhs_h512_1 _ _).trans hk)
  have er : dot_S256x1024_S1024x512_S256x512_1_0_0_1_n_n.rhsIdx (ix2 p q) ((contrEquiv1 dot_S256x1024_S1024x512_S256x512_1_0_0_1_n_n 1024 rfl rfl).symm k) = ix2 k q := funext fun c => Fin.ext (by
    match c with
    | ⟨0, _⟩ => exact (rhs_h512_0 _ _).trans hk
    | ⟨1, _⟩ => exact rhs_h512_1 _ _)
  rw [el, er]

/-- A dense layer with 1024 outputs as the body spells it — the input's product plus the latent part's product plus the
    one-row bias laid along every row — is, at entry (p, q), output q of the layer on row p of the two blocks. -/
theorem dense_1024 (x' : FVec Ideal S256x512 .bf16) (h' : FVec Ideal S256x1024 .bf16)
    (wx : Vec Ideal S512x1024 .bf16) (wh : Vec Ideal S1024x1024 .bf16) (b : Vec Ideal S1x1024 .f32)
    (hcx : S512x1024.ShapeCasts S512x1024) (hch : S1024x1024.ShapeCasts S1024x1024) (hcb : S1x1024.ShapeCasts S1x1024)
    (hb : S1x1024.Broadcasts S256x1024) (p : Fin 256) (q : Fin 1024) :
    (addf (addf (matmul (F := Ideal) dot_S256x512_S512x1024_S256x1024_1_0_0_1_n_n none x' (shapeCast S512x1024 wx hcx : FVec Ideal S512x1024 .bf16) (constant (F := Ideal) S256x1024 .f32 0x00000000#32))
                (matmul (F := Ideal) dot_S256x1024_S1024x1024_S256x1024_1_0_0_1_n_n none h' (shapeCast S1024x1024 wh hch : FVec Ideal S1024x1024 .bf16) (constant (F := Ideal) S256x1024 .f32 0x00000000#32)))
          (broadcastTo S256x1024 (shapeCast S1x1024 b hcb : FVec Ideal S1x1024 .f32) hb)) (ix2 p q)
      = (Layer.ofPieces wx wh b).app (rowOf x' p) (rowOf h' p) q := by
  rw [shapeCast_self, shapeCast_self, shapeCast_self]
  show (matmul (F := Ideal) dot_S256x512_S512x1024_S256x1024_1_0_0_1_n_n none x' (wx : FVec Ideal S512x1024 .bf16) (constant (F := Ideal) S256x1024 .f32 0x00000000#32) (ix2 p q)
        + matmul (F := Ideal) dot_S256x1024_S1024x1024_S256x1024_1_0_0_1_n_n none h' (wh : FVec Ideal S1024x1024 .bf16) (constant (F := Ideal) S256x1024 .f32 0x00000000#32) (ix2 p q))
        + broadcastTo S256x1024 (b : FVec Ideal S1x1024 .f32) hb (ix2 p q) = _
  rw [matmul_x1024, matmul_h1024, broadcastTo_apply (b : FVec Ideal S1x1024 .f32) hb (ix2 p q) (ix2 (0 : Fin 1) q) (by
    intro c
    match c with
    | ⟨0, _⟩ => rfl
    | ⟨1, _⟩ =>
      show q.val = if (1024 : Nat) = 1 then 0 else q.val
      rw [if_neg (by decide)])]
  rfl

/-- A dense layer with 512 outputs as the body spells it — the input's product plus the latent part's product plus the
    one-row bias laid along every row — is, at entry (p, q), output q of the layer on row p of the two blocks. -/
theorem dense_512 (x' : FVec Ideal S256x512 .bf16) (h' : FVec Ideal S256x1024 .bf16)
    (wx : Vec Ideal S512x512 .bf16) (wh : Vec Ideal S1024x512 .bf16) (b : Vec Ideal S1x512 .f32)
    (hcx : S512x512.ShapeCasts S512x512) (hch : S1024x512.ShapeCasts S1024x512) (hcb : S1x512.ShapeCasts S1x512)
    (hb : S1x512.Broadcasts S256x512) (p : Fin 256) (q : Fin 512) :
    (addf (addf (matmul (F := Ideal) dot_S256x512_S512x512_S256x512_1_0_0_1_n_n none x' (shapeCast S512x512 wx hcx : FVec Ideal S512x512 .bf16) (constant (F := Ideal) S256x512 .f32 0x00000000#32))
                (matmul (F := Ideal) dot_S256x1024_S1024x512_S256x512_1_0_0_1_n_n none h' (shapeCast S1024x512 wh hch : FVec Ideal S1024x512 .bf16) (constant (F := Ideal) S256x512 .f32 0x00000000#32)))
          (broadcastTo S256x512 (shapeCast S1x512 b hcb : FVec Ideal S1x512 .f32) hb)) (ix2 p q)
      = (Layer.ofPieces wx wh b).app (rowOf x' p) (rowOf h' p) q := by
  rw [shapeCast_self, shapeCast_self, shapeCast_self]
  show (matmul (F := Ideal) dot_S256x512_S512x512_S256x512_1_0_0_1_n_n none x' (wx : FVec Ideal S512x512 .bf16) (constant (F := Ideal) S256x512 .f32 0x00000000#32) (ix2 p q)
        + matmul (F := Ideal) dot_S256x1024_S1024x512_S256x512_1_0_0_1_n_n none h' (wh : FVec Ideal S1024x512 .bf16) (constant (F := Ideal) S256x512 .f32 0x00000000#32) (ix2 p q))
        + broadcastTo S256x512 (b : FVec Ideal S1x512 .f32) hb (ix2 p q) = _
  rw [matmul_x512, matmul_h512, broadcastTo_apply (b : FVec Ideal S1x512 .f32) hb (ix2 p q) (ix2 (0 : Fin 1) q) (by
    intro c
    match c with
    | ⟨0, _⟩ => rfl
    | ⟨1, _⟩ =>
      show q.val = if (512 : Nat) = 1 then 0 else q.val
      rw [if_neg (by decide)])]
  rfl

variable (x : Vec Ideal S256x512 .f32) (h g : Vec Ideal S256x1024 .f32)
  (wgx : Vec Ideal S512x1024 .bf16) (wgh : Vec Ideal S1024x1024 .bf16) (bg : Vec Ideal S1x1024 .f32)
  (wrx : Vec Ideal S512x1024 .bf16) (wrh : Vec Ideal S1024x1024 .bf16) (br : Vec Ideal S1x1024 .f32)
  (wyx : Vec Ideal S512x512 .bf16) (wyh : Vec Ideal S1024x512 .bf16) (by_ : Vec Ideal S1x512 .f32)
  (wox : Vec Ideal S512x512 .bf16) (woh : Vec Ideal S1024x512 .bf16) (bo : Vec Ideal S1x512 .f32)

/-- The gate the body computes, at row `p` and column `q` of the block. -/
theorem gate_apply (p : Fin 256) (q : Fin 1024) :
    k0_pay3 (F := Ideal) x h g wgx wgh bg (ix2 p q)
      = gateRow (Layer.ofPieces wgx wgh bg) (rowOf x p) (rowOf h p) (rowOf g p) q := by
  unfold k0_pay3
  refine congrArg (fun a => max (Ideal.tanh (a - g (ix2 p q))) zeroW) ?_
  exact dense_1024 (k0_pay1 x) (k0_pay2 h) wgx wgh bg _ _ _ _ p q

/-- The indicator the body stores in its third output. -/
theorem indicator_apply (p : Fin 256) (q : Fin 1024) :
    k0_pay4 (F := Ideal) x h g wgx wgh bg (ix2 p q)
      = indicatorRow (Layer.ofPieces wgx wgh bg) (rowOf x p) (rowOf h p) (rowOf g p) q := by
  unfold k0_pay4
  show ((((Ideal.cmp .ogt (k0_pay3 (F := Ideal) x h g wgx wgh bg (ix2 p q)) zeroW).setWidth 32).toInt : ℝ) : EReal)
      = (((Ideal.cmp .ogt (gateRow (Layer.ofPieces wgx wgh bg) (rowOf x p) (rowOf h p) (rowOf g p) q) zeroW).toNat : ℝ) : EReal)
  rw [toInt_setWidth_bit, gate_apply]
  norm_cast

/-- The second pair of 1024-column products with its bias: the candidate layer on row `p`. -/
theorem cand_apply (p : Fin 256) (q : Fin 1024) :
    k0_pay5 (F := Ideal) x h wrx wrh br (ix2 p q)
      = (Layer.ofPieces wrx wrh br).app (rowOf x p) (rowOf h p) q := by
  unfold k0_pay5
  exact dense_1024 (k0_pay1 x) (k0_pay2 h) wrx wrh br _ _ _ _ p q

/-- The new latent state the body stores in its second output. -/
theorem state_apply (p : Fin 256) (q : Fin 1024) :
    k0_pay6 (F := Ideal) h (k0_pay3 x h g wgx wgh bg) (k0_pay5 x h wrx wrh br) (ix2 p q)
      = stateRow (Layer.ofPieces wgx wgh bg) (Layer.ofPieces wrx wrh br) (rowOf x p) (rowOf h p) (rowOf g p) q := by
  unfold k0_pay6
  show k0_pay3 (F := Ideal) x h g wgx wgh bg (ix2 p q) * Ideal.tanh (k0_pay5 (F := Ideal) x h wrx wrh br (ix2 p q))
        + (oneW - k0_pay3 (F := Ideal) x h g wgx wgh bg (ix2 p q)) * h (ix2 p q)
      = blend (gateRow (Layer.ofPieces wgx wgh bg) (rowOf x p) (rowOf h p) (rowOf g p) q)
          ((Layer.ofPieces wrx wrh br).app (rowOf x p) (rowOf h p) q) (rowOf h p q)
  rw [gate_apply, cand_apply]
  rfl

/-- The output the body stores in its first output. -/
theorem out_apply (p : Fin 256) (q : Fin 512) :
    k0_pay7 (F := Ideal) h (k0_pay1 x) (k0_pay3 x h g wgx wgh bg) (k0_pay5 x h wrx wrh br) wyx wyh by_ wox woh bo (ix2 p q)
      = outRow (Layer.ofPieces wgx wgh bg) (Layer.ofPieces wrx wrh br) (Layer.ofPieces wyx wyh by_) (Layer.ofPieces wox woh bo)
          (rowOf x p) (rowOf h p) (rowOf g p) q := by
  -- row p of the state block, narrowed for the products (the identity on extended reals), is the row's new state
  have hs : ∀ hlt : FTy.bits .bf16 < FTy.bits .f32,
      rowOf (truncf .bf16 (k0_pay6 (F := Ideal) h (k0_pay3 x h g wgx wgh bg) (k0_pay5 x h wrx wrh br)) hlt : FVec Ideal S256x1024 .bf16) p
        = stateRow (Layer.ofPieces wgx wgh bg) (Layer.ofPieces wrx wrh br) (rowOf x p) (rowOf h p) (rowOf g p) :=
    fun _ => funext fun k => state_apply x h g wgx wgh bg wrx wrh br p k
  unfold k0_pay7
  refine congrArg₂ (fun a b => Ideal.tanh a * Ideal.logistic b) ?_ ?_
  · refine (dense_512 (k0_pay1 x) _ wyx wyh by_ _ _ _ _ p q).trans ?_
    rw [hs]
    rfl
  · refine (dense_512 (k0_pay1 x) _ wox woh bo _ _ _ _ p q).trans ?_
    rw [hs]
    rfl

end Cert.KernelIdeal.Body

end
-- ==== Proof.Arrays.lean ====
/-
  From the kernel's blocks to its three result arrays.

  The grid has 64 points; point t stages rows 256·t … 256·t + 255 of the batch arrays X, H, G and the
  whole of each weight piece, and writes back rows 256·t … 256·t + 255 of the three results. The weight
  pieces the region finds are what the host operations before it made of the arguments: rows 0 … 511 and
  rows 512 … 1535 of each [1536, C] weight matrix (a change of float format is the identity) and each bias
  as a one-row matrix. So the layers a point sees are the layers of the argument arrays, the rows it sees
  are rows of the batch, and what it writes back is its block of the gated cell's whole-array functions
  (GatedCell.lean); the 64 blocks of 256 rows cover the 16384 rows.
-/
import proofs.«144852_j84018150245162_1_alg».proof.Proof.Gen.KernelIdeal.Value
import proofs.«144852_j84018150245162_1_alg».proof.Proof.GatedCell
import proofs.«144852_j84018150245162_1_alg».proof.Proof.BodyRows
import Idealize.ShloMosaic.Lib.ValueIdx
import Idealize.ShloMosaic.Lib.Pipeline.Value
import Idealize.ShloMosaic.Lib.StableHlo.Run

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.GatedCell
open Idealize.ShloMosaic.Pipeline (Dat)

variable (m : (ℓ : Loc nD τ sig) → Buf (Elt Ideal) ℓ) (ρ : Dev nD → PrngReg)

/-! ## What the host operations before the region leave in the weight windows -/

/-- Rows o … o + n − 1 of a [1536, C] matrix, read at (k, q): the matrix at (o + k, q). -/
theorem slice_rows {C n : Nat} (o : Nat) (W : (⟨2, ![1536, C]⟩ : Shape).Idx → EReal)
    (h : (⟨2, ![1536, C]⟩ : Shape).Slices ![o, 0] ⟨2, ![n, C]⟩) (k : Fin n) (q : Fin C) (hk : o + k.val < 1536) :
    extractStridedSlice ⟨2, ![n, C]⟩ ![o, 0] W h (ix2 k q) = W (ix2 (⟨o + k.val, hk⟩ : Fin 1536) q) := by
  refine extractStridedSlice_apply ![o, 0] W h (ix2 k q) (ix2 (⟨o + k.val, hk⟩ : Fin 1536) q) fun a => ?_
  match a with
  | ⟨0, _⟩ => rfl
  | ⟨1, _⟩ => show q.val = 0 + q.val; omega

/-- A vector of C entries as a one-row matrix, read at (0, q): the vector at q. -/
theorem row_cast {C : Nat} (b : (⟨1, ![C]⟩ : Shape).Idx → EReal) (h : (⟨1, ![C]⟩ : Shape).ShapeCasts ⟨2, ![1, C]⟩) (q : Fin C) :
    shapeCast ⟨2, ![1, C]⟩ b h (ix2 (0 : Fin 1) q) = b (ix1 q) := by
  refine shapeCast_apply b h (ix2 (0 : Fin 1) q) (ix1 q) ?_
  rw [Shape.rowMajor_val_two, Shape.rowMajor_val_one]
  show q.val = 0 * C + q.val
  omega

/-! ## The index maps, decided over the 64 points -/

theorem hz : (![0, 0] : Fin 2 → Nat) = fun _ => 0 := funext fun a => by fin_cases a <;> rfl

/-- The batch windows and the result windows sit at block row `t`, block column 0. -/
theorem idx_batch : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem idx_results : ∀ t : Fin cfg0.N, win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- Every weight and bias window is its whole array at every point. -/
theorem idx_layer_g : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_layer_r : ∀ t : Fin cfg0.N, win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem idx_layer_y : ∀ t : Fin cfg0.N, win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem idx_layer_o : ∀ t : Fin cfg0.N, win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-! ## The layers a point sees -/

/-- The x part of layer g as the region finds it: rows 0 … 511 of the weight argument. -/
theorem stage_g_x (c : Dev nD) : (V m c main_v1 : S512x1024.Idx → EReal)
    = truncf (F := Ideal) .bf16 (extractStridedSlice S512x1024 ![0, 0] (m ((c : Thread nD τ).loc main_arg3)) slices_S1536x1024_S512x1024_0_0) bitsLt_bf16_f32 := by
  dsimp only [Gen.V, Gen.hostOps0]; after_results

/-- The latent part of layer g as the region finds it: rows 512 … 1535 of the weight argument. -/
theorem stage_g_h (c : Dev nD) : (V m c main_v3 : S1024x1024.Idx → EReal)
    = truncf (F := Ideal) .bf16 (extractStridedSlice S1024x1024 ![512, 0] (m ((c : Thread nD τ).loc main_arg3)) slices_S1536x1024_S1024x1024_512_0) bitsLt_bf16_f32 := by
  dsimp only [Gen.V, Gen.hostOps0]; after_results

/-- The bias of layer g as the region finds it: the bias argument as a one-row matrix. -/
theorem stage_g_b (c : Dev nD) : (V m c main_v16 : S1x1024.Idx → EReal)
    = shapeCast S1x1024 (m ((c : Thread nD τ).loc main_arg4)) shapeCasts_S1024_S1x1024 := by
  dsimp only [Gen.V, Gen.hostOps0]; after_results; rfl

/-- The layer g a point sees in its staged weight pieces is the layer of the weight and bias arguments. -/
theorem layer_g (c : Dev nD) (t : Fin cfg0.N) :
    Layer.ofPieces (iblk m c 3 t) (iblk m c 4 t) (iblk m c 5 t)
      = Layer.ofArrays (m ((c : Thread nD τ).loc main_arg3)) (m ((c : Thread nD τ).loc main_arg4)) := by
  obtain ⟨e0, e1, e2, e3, e4, e5⟩ := idx_layer_g t
  have hx : ∀ (q : Fin 1024) (k : Fin 512), iblk m c 3 t (ix2 k q)
      = m ((c : Thread nD τ).loc main_arg3) (ix2 (⟨k.val, by omega⟩ : Fin 1536) q) := by
    intro q k
    have hemb : ((cfg0.win 3).blk t).view.emb (ix2 k q) = ix2 k q := by
      funext a; apply Fin.ext
      match a with
      | ⟨0, _⟩ => show win0_3.index t (0 : Fin 2) * 512 + 1 * k.val = k.val; omega
      | ⟨1, _⟩ => show win0_3.index t (1 : Fin 2) * 1024 + 1 * q.val = q.val; omega
    show V m c main_v1 (((cfg0.win 3).blk t).view.emb (ix2 k q)) = _
    rw [hemb, stage_g_x]
    refine (slice_rows 0 _ slices_S1536x1024_S512x1024_0_0 k q (by omega)).trans ?_
    exact congrArg _ (congrArg (fun r => ix2 r q) (Fin.ext (by show 0 + k.val = k.val; omega)))
  have hh : ∀ (q : Fin 1024) (k : Fin 1024), iblk m c 4 t (ix2 k q)
      = m ((c : Thread nD τ).loc main_arg3) (ix2 (⟨512 + k.val, by omega⟩ : Fin 1536) q) := by
    intro q k
    have hemb : ((cfg0.win 4).blk t).view.emb (ix2 k q) = ix2 k q := by
      funext a; apply Fin.ext
      match a with
      | ⟨0, _⟩ => show win0_4.index t (0 : Fin 2) * 1024 + 1 * k.val = k.val; omega
      | ⟨1, _⟩ => show win0_4.index t (1 : Fin 2) * 1024 + 1 * q.val = q.val; omega
    show V m c main_v3 (((cfg0.win 4).blk t).view.emb (ix2 k q)) = _
    rw [hemb, stage_g_h]
    exact slice_rows 512 _ slices_S1536x1024_S1024x1024_512_0 k q (by omega)
  have hb : ∀ q : Fin 1024, iblk m c 5 t (ix2 (0 : Fin 1) q) = m ((c : Thread nD τ).loc main_arg4) (ix1 q) := by
    intro q
    have hemb : ((cfg0.win 5).blk t).view.emb (ix2 (0 : Fin 1) q) = ix2 (0 : Fin 1) q := by
      funext a; apply Fin.ext
      match a with
      | ⟨0, _⟩ => show win0_5.index t (0 : Fin 2) * 1 + 1 * 0 = 0; omega
      | ⟨1, _⟩ => show win0_5.index t (1 : Fin 2) * 1024 + 1 * q.val = q.val; omega
    show V m c main_v16 (((cfg0.win 5).blk t).view.emb (ix2 (0 : Fin 1) q)) = _
    rw [hemb, stage_g_b]
    exact row_cast _ shapeCasts_S1024_S1x1024 q
  unfold Layer.ofPieces Layer.ofArrays
  congr 1
  · funext q k; exact hx q k
  · funext q k; exact hh q k
  · funext q; exact hb q

/-- The x part of layer r as the region finds it: rows 0 … 511 of the weight argument. -/
theorem stage_r_x (c : Dev nD) : (V m c main_v5 : S512x1024.Idx → EReal)
    = truncf (F := Ideal) .bf16 (extractStridedSlice S512x1024 ![0, 0] (m ((c : Thread nD τ).loc main_arg5)) slices_S1536x1024_S512x1024_0_0) bitsLt_bf16_f32 := by
  dsimp only [Gen.V, Gen.hostOps0]; after_results

/-- The latent part of layer r as the region finds it: rows 512 … 1535 of the weight argument. -/
theorem stage_r_h (c : Dev nD) : (V m c main_v7 : S1024x1024.Idx → EReal)
    = truncf (F := Ideal) .bf16 (extractStridedSlice S1024x1024 ![512, 0] (m ((c : Thread nD τ).loc main_arg5)) slices_S1536x1024_S1024x1024_512_0) bitsLt_bf16_f32 := by
  dsimp only [Gen.V, Gen.hostOps0]; after_results

/-- The bias of layer r as the region finds it: the bias argument as a one-row matrix. -/
theorem stage_r_b (c : Dev nD) : (V m c main_v17 : S1x1024.Idx → EReal)
    = shapeCast S1x1024 (m ((c : Thread nD τ).loc main_arg6)) shapeCasts_S1024_S1x1024 := by
  dsimp only [Gen.V, Gen.hostOps0]; after_results; rfl

/-- The layer r a point sees in its staged weight pieces is the layer of the weight and bias arguments. -/
theorem layer_r (c : Dev nD) (t : Fin cfg0.N) :
    Layer.ofPieces (iblk m c 6 t) (iblk m c 7 t) (iblk m c 8 t)
      = Layer.ofArrays (m ((c : Thread nD τ).loc main_arg5)) (m ((c : Thread nD τ).loc main_arg6)) := by
  obtain ⟨e0, e1, e2, e3, e4, e5⟩ := idx_layer_r t
  have hx : ∀ (q : Fin 1024) (k : Fin 512), iblk m c 6 t (ix2 k q)
      = m ((c : Thread nD τ).loc main_arg5) (ix2 (⟨k.val, by omega⟩ : Fin 1536) q) := by
    intro q k
    have hemb : ((cfg0.win 6).blk t).view.emb (ix2 k q) = ix2 k q := by
      funext a; apply Fin.ext
      match a with
      | ⟨0, _⟩ => show win0_6.index t (0 : Fin 2) * 512 + 1 * k.val = k.val; omega
      | ⟨1, _⟩ => show win0_6.index t (1 : Fin 2) * 1024 + 1 * q.val = q.val; omega
    show V m c main_v5 (((cfg0.win 6).blk t).view.emb (ix2 k q)) = _
    rw [hemb, stage_r_x]
    refine (slice_rows 0 _ slices_S1536x1024_S512x1024_0_0 k q (by omega)).trans ?_
    exact congrArg _ (congrArg (fun r => ix2 r q) (Fin.ext (by show 0 + k.val = k.val; omega)))
  have hh : ∀ (q : Fin 1024) (k : Fin 1024), iblk m c 7 t (ix2 k q)
      = m ((c : Thread nD τ).loc main_arg5) (ix2 (⟨512 + k.val, by omega⟩ : Fin 1536) q) := by
    intro q k
    have hemb : ((cfg0.win 7).blk t).view.emb (ix2 k q) = ix2 k q := by
      funext a; apply Fin.ext
      match a with
      | ⟨0, _⟩ => show win0_7.index t (0 : Fin 2) * 1024 + 1 * k.val = k.val; omega
      | ⟨1, _⟩ => show win0_7.index t (1 : Fin 2) * 1024 + 1 * q.val = q.val; omega
    show V m c main_v7 (((cfg0.win 7).blk t).view.emb (ix2 k q)) = _
    rw [hemb, stage_r_h]
    exact slice_rows 512 _ slices_S1536x1024_S1024x1024_512_0 k q (by omega)
  have hb : ∀ q : Fin 1024, iblk m c 8 t (ix2 (0 : Fin 1) q) = m ((c : Thread nD τ).loc main_arg6) (ix1 q) := by
    intro q
    have hemb : ((cfg0.win 8).blk t).view.emb (ix2 (0 : Fin 1) q) = ix2 (0 : Fin 1) q := by
      funext a; apply Fin.ext
      match a with
      | ⟨0, _⟩ => show win0_8.index t (0 : Fin 2) * 1 + 1 * 0 = 0; omega
      | ⟨1, _⟩ => show win0_8.index t (1 : Fin 2) * 1024 + 1 * q.val = q.val; omega
    show V m c main_v17 (((cfg0.win 8).blk t).view.emb (ix2 (0 : Fin 1) q)) = _
    rw [hemb, stage_r_b]
    exact row_cast _ shapeCasts_S1024_S1x1024 q
  unfold Layer.ofPieces Layer.ofArrays
  congr 1
  · funext q k; exact hx q k
  · funext q k; exact hh q k
  · funext q; exact hb q

/-- The x part of layer y as the region finds it: rows 0 … 511 of the weight argument. -/
theorem stage_y_x (c : Dev nD) : (V m c main_v9 : S512x512.Idx → EReal)
    = truncf (F := Ideal) .bf16 (extractStridedSlice S512x512 ![0, 0] (m ((c : Thread nD τ).loc main_arg7)) slices_S1536x512_S512x512_0_0) bitsLt_bf16_f32 := by
  dsimp only [Gen.V, Gen.hostOps0]; after_results

/-- The latent part of layer y as the region finds it: rows 512 … 1535 of the weight argument. -/
theorem stage_y_h (c : Dev nD) : (V m c main_v11 : S1024x512.Idx → EReal)
    = truncf (F := Ideal) .bf16 (extractStridedSlice S1024x512 ![512, 0] (m ((c : Thread nD τ).loc main_arg7)) slices_S1536x512_S1024x512_512_0) bitsLt_bf16_f32 := by
  dsimp only [Gen.V, Gen.hostOps0]; after_results

/-- The bias of layer y as the region finds it: the bias argument as a one-row matrix. -/
theorem stage_y_b (c : Dev nD) : (V m c main_v18 : S1x512.Idx → EReal)
    = shapeCast S1x512 (m ((c : Thread nD τ).loc main_arg8)) shapeCasts_S512_S1x512 := by
  dsimp only [Gen.V, Gen.hostOps0]; after_results; rfl

/-- The layer y a point sees in its staged weight pieces is the layer of the weight and bias arguments. -/
theorem layer_y (c : Dev nD) (t : Fin cfg0.N) :
    Layer.ofPieces (iblk m c 9 t) (iblk m c 10 t) (iblk m c 11 t)
      = Layer.ofArrays (m ((c : Thread nD τ).loc main_arg7)) (m ((c : Thread nD τ).loc main_arg8)) := by
  obtain ⟨e0, e1, e2, e3, e4, e5⟩ := idx_layer_y t
  have hx : ∀ (q : Fin 512) (k : Fin 512), iblk m c 9 t (ix2 k q)
      = m ((c : Thread nD τ).loc main_arg7) (ix2 (⟨k.val, by omega⟩ : Fin 1536) q) := by
    intro q k
    have hemb : ((cfg0.win 9).blk t).view.emb (ix2 k q) = ix2 k q := by
      funext a; apply Fin.ext
      match a with
      | ⟨0, _⟩ => show win0_9.index t (0 : Fin 2) * 512 + 1 * k.val = k.val; omega
      | ⟨1, _⟩ => show win0_9.index t (1 : Fin 2) * 512 + 1 * q.val = q.val; omega
    show V m c main_v9 (((cfg0.win 9).blk t).view.emb (ix2 k q)) = _
    rw [hemb, stage_y_x]
    refine (slice_rows 0 _ slices_S1536x512_S512x512_0_0 k q (by omega)).trans ?_
    exact congrArg _ (congrArg (fun r => ix2 r q) (Fin.ext (by show 0 + k.val = k.val; omega)))
  have hh : ∀ (q : Fin 512) (k : Fin 1024), iblk m c 10 t (ix2 k q)
      = m ((c : Thread nD τ).loc main_arg7) (ix2 (⟨512 + k.val, by omega⟩ : Fin 1536) q) := by
    intro q k
    have hemb : ((cfg0.win 10).blk t).view.emb (ix2 k q) = ix2 k q := by
      funext a; apply Fin.ext
      match a with
      | ⟨0, _⟩ => show win0_10.index t (0 : Fin 2) * 1024 + 1 * k.val = k.val; omega
      | ⟨1, _⟩ => show win0_10.index t (1 : Fin 2) * 512 + 1 * q.val = q.val; omega
    show V m c main_v11 (((cfg0.win 10).blk t).view.emb (ix2 k q)) = _
    rw [hemb, stage_y_h]
    exact slice_rows 512 _ slices_S1536x512_S1024x512_512_0 k q (by omega)
  have hb : ∀ q : Fin 512, iblk m c 11 t (ix2 (0 : Fin 1) q) = m ((c : Thread nD τ).loc main_arg8) (ix1 q) := by
    intro q
    have hemb : ((cfg0.win 11).blk t).view.emb (ix2 (0 : Fin 1) q) = ix2 (0 : Fin 1) q := by
      funext a; apply Fin.ext
      match a with
      | ⟨0, _⟩ => show win0_11.index t (0 : Fin 2) * 1 + 1 * 0 = 0; omega
      | ⟨1, _⟩ => show win0_11.index t (1 : Fin 2) * 512 + 1 * q.val = q.val; omega
    show V m c main_v18 (((cfg0.win 11).blk t).view.emb (ix2 (0 : Fin 1) q)) = _
    rw [hemb, stage_y_b]
    exact row_cast _ shapeCasts_S512_S1x512 q
  unfold Layer.ofPieces Layer.ofArrays
  congr 1
  · funext q k; exact hx q k
  · funext q k; exact hh q k
  · funext q; exact hb q

/-- The x part of layer o as the region finds it: rows 0 … 511 of the weight argument. -/
theorem stage_o_x (c : Dev nD) : (V m c main_v13 : S512x512.Idx → EReal)
    = truncf (F := Ideal) .bf16 (extractStridedSlice S512x512 ![0, 0] (m ((c : Thread nD τ).loc main_arg9)) slices_S1536x512_S512x512_0_0) bitsLt_bf16_f32 := by
  dsimp only [Gen.V, Gen.hostOps0]; after_results

/-- The latent part of layer o as the region finds it: rows 512 … 1535 of the weight argument. -/
theorem stage_o_h (c : Dev nD) : (V m c main_v15 : S1024x512.Idx → EReal)
    = truncf (F := Ideal) .bf16 (extractStridedSlice S1024x512 ![512, 0] (m ((c : Thread nD τ).loc main_arg9)) slices_S1536x512_S1024x512_512_0) bitsLt_bf16_f32 := by
  dsimp only [Gen.V, Gen.hostOps0]; after_results

/-- The bias of layer o as the region finds it: the bias argument as a one-row matrix. -/
theorem stage_o_b (c : Dev nD) : (V m c main_v19 : S1x512.Idx → EReal)
    = shapeCast S1x512 (m ((c : Thread nD τ).loc main_arg10)) shapeCasts_S512_S1x512 := by
  dsimp only [Gen.V, Gen.hostOps0]; after_results; rfl

/-- The layer o a point sees in its staged weight pieces is the layer of the weight and bias arguments. -/
theorem layer_o (c : Dev nD) (t : Fin cfg0.N) :
    Layer.ofPieces (iblk m c 12 t) (iblk m c 13 t) (iblk m c 14 t)
      = Layer.ofArrays (m ((c : Thread nD τ).loc main_arg9)) (m ((c : Thread nD τ).loc main_arg10)) := by
  obtain ⟨e0, e1, e2, e3, e4, e5⟩ := idx_layer_o t
  have hx : ∀ (q : Fin 512) (k : Fin 512), iblk m c 12 t (ix2 k q)
      = m ((c : Thread nD τ).loc main_arg9) (ix2 (⟨k.val, by omega⟩ : Fin 1536) q) := by
    intro q k
    have hemb : ((cfg0.win 12).blk t).view.emb (ix2 k q) = ix2 k q := by
      funext a; apply Fin.ext
      match a with
      | ⟨0, _⟩ => show win0_12.index t (0 : Fin 2) * 512 + 1 * k.val = k.val; omega
      | ⟨1, _⟩ => show win0_12.index t (1 : Fin 2) * 512 + 1 * q.val = q.val; omega
    show V m c main_v13 (((cfg0.win 12).blk t).view.emb (ix2 k q)) = _
    rw [hemb, stage_o_x]
    refine (slice_rows 0 _ slices_S1536x512_S512x512_0_0 k q (by omega)).trans ?_
    exact congrArg _ (congrArg (fun r => ix2 r q) (Fin.ext (by show 0 + k.val = k.val; omega)))
  have hh : ∀ (q : Fin 512) (k : Fin 1024), iblk m c 13 t (ix2 k q)
      = m ((c : Thread nD τ).loc main_arg9) (ix2 (⟨512 + k.val, by omega⟩ : Fin 1536) q) := by
    intro q k
    have hemb : ((cfg0.win 13).blk t).view.emb (ix2 k q) = ix2 k q := by
      funext a; apply Fin.ext
      match a with
      | ⟨0, _⟩ => show win0_13.index t (0 : Fin 2) * 1024 + 1 * k.val = k.val; omega
      | ⟨1, _⟩ => show win0_13.index t (1 : Fin 2) * 512 + 1 * q.val = q.val; omega
    show V m c main_v15 (((cfg0.win 13).blk t).view.emb (ix2 k q)) = _
    rw [hemb, stage_o_h]
    exact slice_rows 512 _ slices_S1536x512_S1024x512_512_0 k q (by omega)
  have hb : ∀ q : Fin 512, iblk m c 14 t (ix2 (0 : Fin 1) q) = m ((c : Thread nD τ).loc main_arg10) (ix1 q) := by
    intro q
    have hemb : ((cfg0.win 14).blk t).view.emb (ix2 (0 : Fin 1) q) = ix2 (0 : Fin 1) q := by
      funext a; apply Fin.ext
      match a with
      | ⟨0, _⟩ => show win0_14.index t (0 : Fin 2) * 1 + 1 * 0 = 0; omega
      | ⟨1, _⟩ => show win0_14.index t (1 : Fin 2) * 512 + 1 * q.val = q.val; omega
    show V m c main_v19 (((cfg0.win 14).blk t).view.emb (ix2 (0 : Fin 1) q)) = _
    rw [hemb, stage_o_b]
    exact row_cast _ shapeCasts_S512_S1x512 q
  unfold Layer.ofPieces Layer.ofArrays
  congr 1
  · funext q k; exact hx q k
  · funext q k; exact hh q k
  · funext q; exact hb q

/-! ## The batch rows a point sees -/

/-- Row `p` of the x block at point `t` is row 256·t + p of X. -/
theorem row_x (c : Dev nD) (t : Fin cfg0.N) (p : Fin 256) (hp : 256 * t.val + p.val < 16384) :
    rowOf (iblk m c 0 t) p = rowOf (m ((c : Thread nD τ).loc main_arg0)) (⟨256 * t.val + p.val, hp⟩ : Fin 16384) := by
  obtain ⟨e0, e1, e2, e3, e4, e5⟩ := idx_batch t
  funext k
  show V m c main_arg0 (((cfg0.win 0).blk t).view.emb (ix2 p k)) = m ((c : Thread nD τ).loc main_arg0) (ix2 (⟨256 * t.val + p.val, hp⟩ : Fin 16384) k)
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 512 + 1 * k.val = k.val; omega

/-- Row `p` of the h block at point `t` is row 256·t + p of H. -/
theorem row_h (c : Dev nD) (t : Fin cfg0.N) (p : Fin 256) (hp : 256 * t.val + p.val < 16384) :
    rowOf (iblk m c 1 t) p = rowOf (m ((c : Thread nD τ).loc main_arg1)) (⟨256 * t.val + p.val, hp⟩ : Fin 16384) := by
  obtain ⟨e0, e1, e2, e3, e4, e5⟩ := idx_batch t
  funext k
  show V m c main_arg1 (((cfg0.win 1).blk t).view.emb (ix2 p k)) = m ((c : Thread nD τ).loc main_arg1) (ix2 (⟨256 * t.val + p.val, hp⟩ : Fin 16384) k)
  rw [V_main_arg1]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

/-- Row `p` of the noise block at point `t` is row 256·t + p of G. -/
theorem row_g (c : Dev nD) (t : Fin cfg0.N) (p : Fin 256) (hp : 256 * t.val + p.val < 16384) :
    rowOf (iblk m c 2 t) p = rowOf (m ((c : Thread nD τ).loc main_arg2)) (⟨256 * t.val + p.val, hp⟩ : Fin 16384) := by
  obtain ⟨e0, e1, e2, e3, e4, e5⟩ := idx_batch t
  funext k
  show V m c main_arg2 (((cfg0.win 2).blk t).view.emb (ix2 p k)) = m ((c : Thread nD τ).loc main_arg2) (ix2 (⟨256 * t.val + p.val, hp⟩ : Fin 16384) k)
  rw [V_main_arg2]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

/-! ## What a point writes back -/

/-- Point `t` writes back rows 256·t … 256·t + 255 of the new latent state. -/
theorem flushed_state (c : Dev nD) (t : Fin cfg0.N) :
    (dats m 0 c).flushed 16 t = ((cfg0.win 16).blk t).view.read (Elt Ideal) (stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed16]
  unfold out0_16
  rw [View.canon_unit_zero hz]
  simp only [View.ld_unit_zero (S := S256x512) hz, View.ld_unit_zero (S := S256x1024) hz, View.ld_unit_zero (S := S512x1024) hz, View.ld_unit_zero (S := S1024x1024) hz, View.ld_unit_zero (S := S1x1024) hz, View.ld_unit_zero (S := S512x512) hz, View.ld_unit_zero (S := S1024x512) hz, View.ld_unit_zero (S := S1x512) hz]
  funext j
  have hj0 : (j 0).val < 256 := (j 0).isLt
  have hj1 : (j 1).val < 1024 := (j 1).isLt
  have ht : t.val < 64 := lt_of_lt_of_eq t.isLt N_0
  obtain ⟨e0, e1, e2, e3, e4, e5⟩ := idx_results t
  have hi : ((cfg0.win 16).blk t).view.emb j
      = ix2 (⟨256 * t.val + (j 0).val, by omega⟩ : Fin 16384) (⟨(j 1).val, hj1⟩ : Fin 1024) := by
    funext a; apply Fin.ext
    match a with
    | ⟨0, _⟩ => show win0_16.index t (0 : Fin 2) * 256 + 1 * (j 0).val = 256 * t.val + (j 0).val; omega
    | ⟨1, _⟩ => show win0_16.index t (1 : Fin 2) * 1024 + 1 * (j 1).val = (j 1).val; omega
  have hy : (cfg0.win 16).xinj (grid0.coords t) j = ix2 (⟨(j 0).val, hj0⟩ : Fin 256) (⟨(j 1).val, hj1⟩ : Fin 1024) := by
    funext a
    match a with
    | ⟨0, _⟩ => rfl
    | ⟨1, _⟩ => rfl
  show k0_pay6 (F := Ideal) (iblk m c 1 t) (k0_pay3 (iblk m c 0 t) (iblk m c 1 t) (iblk m c 2 t) (iblk m c 3 t) (iblk m c 4 t) (iblk m c 5 t)) (k0_pay5 (iblk m c 0 t) (iblk m c 1 t) (iblk m c 6 t) (iblk m c 7 t) (iblk m c 8 t)) ((cfg0.win 16).xinj (grid0.coords t) j)
      = stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 16).blk t).view.emb j)
  rw [hy, hi, Body.state_apply]
  show _ = stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨256 * t.val + (j 0).val, by omega⟩ : Fin 16384) (⟨(j 1).val, hj1⟩ : Fin 1024))
  unfold stateArr
  rw [layer_g, layer_r, row_x m c t ⟨(j 0).val, hj0⟩ (by omega), row_h m c t ⟨(j 0).val, hj0⟩ (by omega), row_g m c t ⟨(j 0).val, hj0⟩ (by omega)]

/-- Point `t` writes back rows 256·t … 256·t + 255 of the gate's indicator. -/
theorem flushed_indicator (c : Dev nD) (t : Fin cfg0.N) :
    (dats m 0 c).flushed 17 t = ((cfg0.win 17).blk t).view.read (Elt Ideal) (indicatorArr (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed17]
  unfold out0_17
  rw [View.canon_unit_zero hz]
  simp only [View.ld_unit_zero (S := S256x512) hz, View.ld_unit_zero (S := S256x1024) hz, View.ld_unit_zero (S := S512x1024) hz, View.ld_unit_zero (S := S1024x1024) hz, View.ld_unit_zero (S := S1x1024) hz, View.ld_unit_zero (S := S512x512) hz, View.ld_unit_zero (S := S1024x512) hz, View.ld_unit_zero (S := S1x512) hz]
  funext j
  have hj0 : (j 0).val < 256 := (j 0).isLt
  have hj1 : (j 1).val < 1024 := (j 1).isLt
  have ht : t.val < 64 := lt_of_lt_of_eq t.isLt N_0
  obtain ⟨e0, e1, e2, e3, e4, e5⟩ := idx_results t
  have hi : ((cfg0.win 17).blk t).view.emb j
      = ix2 (⟨256 * t.val + (j 0).val, by omega⟩ : Fin 16384) (⟨(j 1).val, hj1⟩ : Fin 1024) := by
    funext a; apply Fin.ext
    match a with
    | ⟨0, _⟩ => show win0_17.index t (0 : Fin 2) * 256 + 1 * (j 0).val = 256 * t.val + (j 0).val; omega
    | ⟨1, _⟩ => show win0_17.index t (1 : Fin 2) * 1024 + 1 * (j 1).val = (j 1).val; omega
  have hy : (cfg0.win 17).xinj (grid0.coords t) j = ix2 (⟨(j 0).val, hj0⟩ : Fin 256) (⟨(j 1).val, hj1⟩ : Fin 1024) := by
    funext a
    match a with
    | ⟨0, _⟩ => rfl
    | ⟨1, _⟩ => rfl
  show k0_pay4 (F := Ideal) (iblk m c 0 t) (iblk m c 1 t) (iblk m c 2 t) (iblk m c 3 t) (iblk m c 4 t) (iblk m c 5 t) ((cfg0.win 17).xinj (grid0.coords t) j)
      = indicatorArr (m ((c : Thread nD τ).loc main_arg0)) (m ((c : Thread nD τ).loc main_arg1)) (m ((c : Thread nD τ).loc main_arg2)) (m ((c : Thread nD τ).loc main_arg3)) (m ((c : Thread nD τ).loc main_arg4)) (((cfg0.win 17).blk t).view.emb j)
  rw [hy, hi, Body.indicator_apply]
  show _ = indicatorArr (m ((c : Thread nD τ).loc main_arg0)) (m ((c : Thread nD τ).loc main_arg1)) (m ((c : Thread nD τ).loc main_arg2)) (m ((c : Thread nD τ).loc main_arg3)) (m ((c : Thread nD τ).loc main_arg4)) (ix2 (⟨256 * t.val + (j 0).val, by omega⟩ : Fin 16384) (⟨(j 1).val, hj1⟩ : Fin 1024))
  unfold indicatorArr
  rw [layer_g, row_x m c t ⟨(j 0).val, hj0⟩ (by omega), row_h m c t ⟨(j 0).val, hj0⟩ (by omega), row_g m c t ⟨(j 0).val, hj0⟩ (by omega)]

/-- Point `t` writes back rows 256·t … 256·t + 255 of the output. -/
theorem flushed_out (c : Dev nD) (t : Fin cfg0.N) :
    (dats m 0 c).flushed 15 t = ((cfg0.win 15).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed15]
  unfold out0_15
  rw [View.canon_unit_zero hz]
  simp only [View.ld_unit_zero (S := S256x512) hz, View.ld_unit_zero (S := S256x1024) hz, View.ld_unit_zero (S := S512x1024) hz, View.ld_unit_zero (S := S1024x1024) hz, View.ld_unit_zero (S := S1x1024) hz, View.ld_unit_zero (S := S512x512) hz, View.ld_unit_zero (S := S1024x512) hz, View.ld_unit_zero (S := S1x512) hz]
  funext j
  have hj0 : (j 0).val < 256 := (j 0).isLt
  have hj1 : (j 1).val < 512 := (j 1).isLt
  have ht : t.val < 64 := lt_of_lt_of_eq t.isLt N_0
  obtain ⟨e0, e1, e2, e3, e4, e5⟩ := idx_results t
  have hi : ((cfg0.win 15).blk t).view.emb j
      = ix2 (⟨256 * t.val + (j 0).val, by omega⟩ : Fin 16384) (⟨(j 1).val, hj1⟩ : Fin 512) := by
    funext a; apply Fin.ext
    match a with
    | ⟨0, _⟩ => show win0_15.index t (0 : Fin 2) * 256 + 1 * (j 0).val = 256 * t.val + (j 0).val; omega
    | ⟨1, _⟩ => show win0_15.index t (1 : Fin 2) * 512 + 1 * (j 1).val = (j 1).val; omega
  have hy : (cfg0.win 15).xinj (grid0.coords t) j = ix2 (⟨(j 0).val, hj0⟩ : Fin 256) (⟨(j 1).val, hj1⟩ : Fin 512) := by
    funext a
    match a with
    | ⟨0, _⟩ => rfl
    | ⟨1, _⟩ => rfl
  show k0_pay7 (F := Ideal) (iblk m c 1 t) (k0_pay1 (iblk m c 0 t)) (k0_pay3 (iblk m c 0 t) (iblk m c 1 t) (iblk m c 2 t) (iblk m c 3 t) (iblk m c 4 t) (iblk m c 5 t)) (k0_pay5 (iblk m c 0 t) (iblk m c 1 t) (iblk m c 6 t) (iblk m c 7 t) (iblk m c 8 t)) (iblk m c 9 t) (iblk m c 10 t) (iblk m c 11 t) (iblk m c 12 t) (iblk m c 13 t) (iblk m c 14 t) ((cfg0.win 15).xinj (grid0.coords t) j)
      = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 15).blk t).view.emb j)
  rw [hy, hi, Body.out_apply]
  show _ = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨256 * t.val + (j 0).val, by omega⟩ : Fin 16384) (⟨(j 1).val, hj1⟩ : Fin 512))
  unfold outArr
  rw [layer_g, layer_r, layer_y, layer_o, row_x m c t ⟨(j 0).val, hj0⟩ (by omega), row_h m c t ⟨(j 0).val, hj0⟩ (by omega), row_g m c t ⟨(j 0).val, hj0⟩ (by omega)]

/-! ## The blocks cover the arrays -/

/-- An index of the array is in point `t`'s block iff each coordinate is in the block's range on its axis. -/
theorem mem_blk_out (t : Fin cfg0.N) (i : S16384x512.Idx) :
    i ∈ ((cfg0.win 15).blk t).view.set ↔ ∀ a : Fin 2, win0_15.index t a * S256x512.size a ≤ (i a).val
      ∧ (i a).val < win0_15.index t a * S256x512.size a + S256x512.size a := by
  show i ∈ ((View.whole main_v20_0).slice (win0_15.rect t)).set ↔ _
  rw [View.set_slice_whole, Rect.mem_set_unit]
  exact Iff.rfl

/-- Row r lies in the block of point r / 256: the 64 blocks cover the array. -/
theorem cover_out (i : S16384x512.Idx) :
    ∃ t : Fin cfg0.N, (cfg0.win 15).flush t = true ∧ i ∈ ((cfg0.win 15).blk t).view.set := by
  have hi0 : (i 0).val < 16384 := (i 0).isLt
  have hi1 : (i 1).val < 512 := (i 1).isLt
  have hN : grid0.N = 64 := N_0
  have hlt : (i 0).val / 256 < grid0.N := by omega
  obtain ⟨e0, e1, e2, e3, e4, e5⟩ := idx_results (⟨(i 0).val / 256, hlt⟩ : Fin cfg0.N)
  refine ⟨⟨(i 0).val / 256, hlt⟩, flush0_15 _, ?_⟩
  rw [mem_blk_out]
  intro a
  match a with
  | ⟨0, _⟩ =>
    show win0_15.index ⟨(i 0).val / 256, hlt⟩ (0 : Fin 2) * 256 ≤ (i 0).val
      ∧ (i 0).val < win0_15.index ⟨(i 0).val / 256, hlt⟩ (0 : Fin 2) * 256 + 256
    have hv : (⟨(i 0).val / 256, hlt⟩ : Fin cfg0.N).val = (i 0).val / 256 := rfl
    omega
  | ⟨1, _⟩ =>
    show win0_15.index ⟨(i 0).val / 256, hlt⟩ (1 : Fin 2) * 512 ≤ (i 1).val
      ∧ (i 1).val < win0_15.index ⟨(i 0).val / 256, hlt⟩ (1 : Fin 2) * 512 + 512
    omega

/-- An index of the array is in point `t`'s block iff each coordinate is in the block's range on its axis. -/
theorem mem_blk_state (t : Fin cfg0.N) (i : S16384x1024.Idx) :
    i ∈ ((cfg0.win 16).blk t).view.set ↔ ∀ a : Fin 2, win0_16.index t a * S256x1024.size a ≤ (i a).val
      ∧ (i a).val < win0_16.index t a * S256x1024.size a + S256x1024.size a := by
  show i ∈ ((View.whole main_v20_1).slice (win0_16.rect t)).set ↔ _
  rw [View.set_slice_whole, Rect.mem_set_unit]
  exact Iff.rfl

/-- Row r lies in the block of point r / 256: the 64 blocks cover the array. -/
theorem cover_state (i : S16384x1024.Idx) :
    ∃ t : Fin cfg0.N, (cfg0.win 16).flush t = true ∧ i ∈ ((cfg0.win 16).blk t).view.set := by
  have hi0 : (i 0).val < 16384 := (i 0).isLt
  have hi1 : (i 1).val < 1024 := (i 1).isLt
  have hN : grid0.N = 64 := N_0
  have hlt : (i 0).val / 256 < grid0.N := by omega
  obtain ⟨e0, e1, e2, e3, e4, e5⟩ := idx_results (⟨(i 0).val / 256, hlt⟩ : Fin cfg0.N)
  refine ⟨⟨(i 0).val / 256, hlt⟩, flush0_16 _, ?_⟩
  rw [mem_blk_state]
  intro a
  match a with
  | ⟨0, _⟩ =>
    show win0_16.index ⟨(i 0).val / 256, hlt⟩ (0 : Fin 2) * 256 ≤ (i 0).val
      ∧ (i 0).val < win0_16.index ⟨(i 0).val / 256, hlt⟩ (0 : Fin 2) * 256 + 256
    have hv : (⟨(i 0).val / 256, hlt⟩ : Fin cfg0.N).val = (i 0).val / 256 := rfl
    omega
  | ⟨1, _⟩ =>
    show win0_16.index ⟨(i 0).val / 256, hlt⟩ (1 : Fin 2) * 1024 ≤ (i 1).val
      ∧ (i 1).val < win0_16.index ⟨(i 0).val / 256, hlt⟩ (1 : Fin 2) * 1024 + 1024
    omega

/-- An index of the array is in point `t`'s block iff each coordinate is in the block's range on its axis. -/
theorem mem_blk_indicator (t : Fin cfg0.N) (i : S16384x1024.Idx) :
    i ∈ ((cfg0.win 17).blk t).view.set ↔ ∀ a : Fin 2, win0_17.index t a * S256x1024.size a ≤ (i a).val
      ∧ (i a).val < win0_17.index t a * S256x1024.size a + S256x1024.size a := by
  show i ∈ ((View.whole main_v20_2).slice (win0_17.rect t)).set ↔ _
  rw [View.set_slice_whole, Rect.mem_set_unit]
  exact Iff.rfl

/-- Row r lies in the block of point r / 256: the 64 blocks cover the array. -/
theorem cover_indicator (i : S16384x1024.Idx) :
    ∃ t : Fin cfg0.N, (cfg0.win 17).flush t = true ∧ i ∈ ((cfg0.win 17).blk t).view.set := by
  have hi0 : (i 0).val < 16384 := (i 0).isLt
  have hi1 : (i 1).val < 1024 := (i 1).isLt
  have hN : grid0.N = 64 := N_0
  have hlt : (i 0).val / 256 < grid0.N := by omega
  obtain ⟨e0, e1, e2, e3, e4, e5⟩ := idx_results (⟨(i 0).val / 256, hlt⟩ : Fin cfg0.N)
  refine ⟨⟨(i 0).val / 256, hlt⟩, flush0_17 _, ?_⟩
  rw [mem_blk_indicator]
  intro a
  match a with
  | ⟨0, _⟩ =>
    show win0_17.index ⟨(i 0).val / 256, hlt⟩ (0 : Fin 2) * 256 ≤ (i 0).val
      ∧ (i 0).val < win0_17.index ⟨(i 0).val / 256, hlt⟩ (0 : Fin 2) * 256 + 256
    have hv : (⟨(i 0).val / 256, hlt⟩ : Fin cfg0.N).val = (i 0).val / 256 := rfl
    omega
  | ⟨1, _⟩ =>
    show win0_17.index ⟨(i 0).val / 256, hlt⟩ (1 : Fin 2) * 1024 ≤ (i 1).val
      ∧ (i 1).val < win0_17.index ⟨(i 0).val / 256, hlt⟩ (1 : Fin 2) * 1024 + 1024
    omega

/-! ## The arrays after the run -/

/-- The first result array ends holding the output over the batch. -/
theorem final_out (c : Dev nD) : (dats m 0 c).arrAt 15 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 15 _ (fun t _ => flushed_out m c t) cover_out

/-- The second result array ends holding the new latent state over the batch. -/
theorem final_state (c : Dev nD) : (dats m 0 c).arrAt 16 cfg0.N = stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 16 _ (fun t _ => flushed_state m c t) cover_state

/-- The third result array ends holding the gate's indicator over the batch. -/
theorem final_indicator (c : Dev nD) : (dats m 0 c).arrAt 17 cfg0.N = indicatorArr (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 17 _ (fun t _ => flushed_indicator m c t) cover_indicator

/-- The kernel's run: it terminates with the three results at the gated cell's whole-array functions of
    the arguments, and the arguments unchanged. -/
theorem run : θ_run defs (onTc (τ := τ) (main (F := Ideal))) ⟨m, fun _ => 0, ρ⟩ fun r => ∀ c : Dev nD,
      r.2.mem ((c : Thread nD τ).loc main_v20_0) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v20_1) = stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v20_2) = indicatorArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_out m c), (h c).2.1.trans (final_state m c),
      (h c).2.2.1.trans (final_indicator m c), (h c).2.2.2⟩)
    (Value.run_blocks m ρ)

end Cert.KernelIdeal.Arrays

end
-- ==== Proof.RefRows.lean ====
/-
  The reference's three results, stage by stage, are the gated cell's whole-array functions
  (GatedCell.lean): its matrix product over the 1536 joined entries of [x | h] is split at 512 into
  the part that meets x and the part that meets the latent state, its bias broadcast is the bias
  entry of the column, and its spelled-out 1 / (1 + exp (−o)) is the logistic function.
-/
import proofs.«144852_j84018150245162_1_alg».proof.Proof.Gen.ReferenceIdeal.Read
import proofs.«144852_j84018150245162_1_alg».proof.Proof.GatedCell
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.ReferenceIdeal.Rows

open Cert.ReferenceIdeal Cert.ReferenceIdeal.Read Idealize.ShloMosaic Idealize.ShloMosaic.ValueIdx Cert.GatedCell

/-- The f32 word 0x3F800000 denotes the number one: sign 0, exponent 127, fraction 0, so 2^23 · 2^(127 − 127 − 23). -/
private theorem one_word : Ideal.ofBits .f32 0x3F800000#32 = 1 := by
  simp [Ideal.ofBits, Ideal.ieee, -EReal.coe_mul] <;> norm_num

/-- A dense layer on joined rows. Entry (r, k) of the joined array [X | H'] is X (r, k) for k < 512 and
    H' (r, k − 512) from 512 on, so the sum over the 1536 joined entries against column c of W, split at 512,
    is the layer's sum against x plus its sum against the latent part; the bias entry of column c is added last.
    The two index families are any that name (r, k) in the joined array and (k, c) in the weights. -/
private theorem dense {C : Nat} (X : S16384x512.Idx → EReal) (H' : S16384x1024.Idx → EReal)
    (hcat : Shape.Concatenates [S16384x512, S16384x1024] S16384x1536 1)
    (W : (⟨2, ![1536, C]⟩ : Shape).Idx → EReal) (b : (⟨1, ![C]⟩ : Shape).Idx → EReal) (r : Fin 16384) (c : Fin C)
    (li : Fin 1536 → S16384x1536.Idx) (ri : Fin 1536 → (⟨2, ![1536, C]⟩ : Shape).Idx)
    (hl : ∀ k, li k = ix2 r k) (hr : ∀ k, ri k = ix2 k c) :
    (∑ k : Fin 1536, concatenate S16384x1536 1 [⟨S16384x512, X⟩, ⟨S16384x1024, H'⟩] hcat (li k) * W (ri k)) + b (ix1 c)
      = (Layer.ofArrays W b).app (rowOf X r) (rowOf H' r) c := by
  rw [Finset.sum_congr rfl (fun k _ => by rw [hl k, hr k])]
  rw [sum_joined (fun k => concatenate S16384x1536 1 [⟨S16384x512, X⟩, ⟨S16384x1024, H'⟩] hcat (ix2 r k)) (fun k => W (ix2 k c))]
  show _ = ((∑ k : Fin 512, X (ix2 r k) * W (ix2 (⟨k.val, by omega⟩ : Fin 1536) c)) + ∑ k : Fin 1024, H' (ix2 r k) * W (ix2 (⟨512 + k.val, by omega⟩ : Fin 1536) c)) + b (ix1 c)
  congr 2
  · refine Finset.sum_congr rfl fun k _ => ?_
    show concatenate S16384x1536 1 [⟨S16384x512, X⟩, ⟨S16384x1024, H'⟩] hcat (ix2 r (⟨k.val, by omega⟩ : Fin 1536)) * _ = _
    congr 1
    exact concatenate_pair_apply_left (t := S16384x1536) (s₁ := S16384x512) (s₂ := S16384x1024) 1 X H' hcat
      (ix2 r (⟨k.val, by omega⟩ : Fin 1536)) rfl (ix2 r k) (fun a => by
      match a with
      | ⟨0, _⟩ => rfl
      | ⟨1, _⟩ => rfl)
  · refine Finset.sum_congr rfl fun k _ => ?_
    show concatenate S16384x1536 1 [⟨S16384x512, X⟩, ⟨S16384x1024, H'⟩] hcat (ix2 r (⟨512 + k.val, by omega⟩ : Fin 1536)) * _ = _
    congr 1
    exact concatenate_pair_apply_right (t := S16384x1536) (s₁ := S16384x512) (s₂ := S16384x1024) 1 X H' hcat
      (ix2 r (⟨512 + k.val, by omega⟩ : Fin 1536)) rfl rfl (ix2 r k)
      (fun a ha => by
        match a with
        | ⟨0, _⟩ => rfl
        | ⟨1, _⟩ => exact absurd rfl ha)
      (by show k.val + 512 = 512 + k.val; omega)

variable (X : (⟨S16384x512, .f32⟩ : BufTy).Contents (Elt Ideal)) (H G : (⟨S16384x1024, .f32⟩ : BufTy).Contents (Elt Ideal))
  (Wg : (⟨S1536x1024, .f32⟩ : BufTy).Contents (Elt Ideal)) (bg : (⟨S1024, .f32⟩ : BufTy).Contents (Elt Ideal))
  (Wr : (⟨S1536x1024, .f32⟩ : BufTy).Contents (Elt Ideal)) (br : (⟨S1024, .f32⟩ : BufTy).Contents (Elt Ideal))
  (Wy : (⟨S1536x512, .f32⟩ : BufTy).Contents (Elt Ideal)) (by_ : (⟨S512, .f32⟩ : BufTy).Contents (Elt Ideal))
  (Wo : (⟨S1536x512, .f32⟩ : BufTy).Contents (Elt Ideal)) (bo : (⟨S512, .f32⟩ : BufTy).Contents (Elt Ideal))

/-- Layer g on [x | h]: the matrix product's entry (r, c) plus the broadcast bias is the layer's output c on row r. -/
private theorem pre_g (r : Fin 16384) (c : Fin 1024) :
    val_main_v4 (F := Ideal) X H Wg bg (ix2 r c) = (Layer.ofArrays Wg bg).app (rowOf X r) (rowOf H r) c := by
  rw [val_main_v4_apply, val_main_v1_apply, val_main_v3_apply, val_main_v2_apply]
  have hb : idx_main_v2 (idx_main_v3 (ix2 r c)) = ix1 c := by
    funext a; match a with | ⟨0, _⟩ => rfl
  rw [hb]
  exact dense X H _ Wg bg r c _ _
    (fun k => by funext a; match a with | ⟨0, _⟩ => rfl | ⟨1, _⟩ => rfl)
    (fun k => by funext a; match a with | ⟨0, _⟩ => rfl | ⟨1, _⟩ => rfl)

/-- The update gate λ = max (tanh (a − g)) 0 at entry (r, c). -/
private theorem gate_at (r : Fin 16384) (c : Fin 1024) :
    val_main_v8 (F := Ideal) X H G Wg bg (ix2 r c)
      = gateRow (Layer.ofArrays Wg bg) (rowOf X r) (rowOf H r) (rowOf G r) c := by
  rw [val_main_v8_apply, val_main_v6_apply, val_main_v5_apply, pre_g, val_main_v7_apply, val_main_cst_apply]
  rfl

/-- The reference's third result is the gate's indicator over the batch. -/
theorem indicator_eq : val_main_v11 (F := Ideal) X H G Wg bg = indicatorArr X H G Wg bg := by
  funext i
  obtain ⟨r, c, rfl⟩ : ∃ r c, i = ix2 r c := ⟨i 0, i 1, eq_ix2 i⟩
  rw [val_main_v11_apply, val_main_v10_apply, gate_at, val_main_v9_apply, val_main_cst_0_apply]
  rfl

/-- Layer r on [x | h] at entry (r, c). -/
private theorem pre_r (r : Fin 16384) (c : Fin 1024) :
    val_main_v15 (F := Ideal) X H Wr br (ix2 r c) = (Layer.ofArrays Wr br).app (rowOf X r) (rowOf H r) c := by
  rw [val_main_v15_apply, val_main_v12_apply, val_main_v14_apply, val_main_v13_apply]
  have hb : idx_main_v13 (idx_main_v14 (ix2 r c)) = ix1 c := by
    funext a; match a with | ⟨0, _⟩ => rfl
  rw [hb]
  exact dense X H _ Wr br r c _ _
    (fun k => by funext a; match a with | ⟨0, _⟩ => rfl | ⟨1, _⟩ => rfl)
    (fun k => by funext a; match a with | ⟨0, _⟩ => rfl | ⟨1, _⟩ => rfl)

/-- The reference's second result is the new latent state over the batch. -/
theorem state_eq : val_main_v21 (F := Ideal) X H G Wg bg Wr br = stateArr X H G Wg bg Wr br := by
  funext i
  obtain ⟨r, c, rfl⟩ : ∃ r c, i = ix2 r c := ⟨i 0, i 1, eq_ix2 i⟩
  rw [val_main_v21_apply, val_main_v17_apply, val_main_v20_apply, val_main_v19_apply, gate_at, val_main_v16_apply,
    pre_r, val_main_v18_apply, val_main_cst_1_apply]
  rfl

/-- A row of the new latent state over the batch is the row's new latent state. -/
private theorem row_state (r : Fin 16384) :
    rowOf (stateArr X H G Wg bg Wr br) r
      = stateRow (Layer.ofArrays Wg bg) (Layer.ofArrays Wr br) (rowOf X r) (rowOf H r) (rowOf G r) := rfl

/-- Layer y on [x | h'] at entry (r, c), with h' the row's new latent state. -/
private theorem pre_y (r : Fin 16384) (c : Fin 512) :
    val_main_v26 (F := Ideal) X H G Wg bg Wr br Wy by_ (ix2 r c)
      = (Layer.ofArrays Wy by_).app (rowOf X r)
          (stateRow (Layer.ofArrays Wg bg) (Layer.ofArrays Wr br) (rowOf X r) (rowOf H r) (rowOf G r)) c := by
  rw [val_main_v26_apply, val_main_v23_apply, val_main_v25_apply, val_main_v24_apply]
  have hb : idx_main_v24 (idx_main_v25 (ix2 r c)) = ix1 c := by
    funext a; match a with | ⟨0, _⟩ => rfl
  rw [hb, ← row_state, ← state_eq]
  exact dense X (val_main_v21 (F := Ideal) X H G Wg bg Wr br) _ Wy by_ r c _ _
    (fun k => by funext a; match a with | ⟨0, _⟩ => rfl | ⟨1, _⟩ => rfl)
    (fun k => by funext a; match a with | ⟨0, _⟩ => rfl | ⟨1, _⟩ => rfl)

/-- Layer o on [x | h'] at entry (r, c), with h' the row's new latent state. -/
private theorem pre_o (r : Fin 16384) (c : Fin 512) :
    val_main_v31 (F := Ideal) X H G Wg bg Wr br Wo bo (ix2 r c)
      = (Layer.ofArrays Wo bo).app (rowOf X r)
          (stateRow (Layer.ofArrays Wg bg) (Layer.ofArrays Wr br) (rowOf X r) (rowOf H r) (rowOf G r)) c := by
  rw [val_main_v31_apply, val_main_v28_apply, val_main_v30_apply, val_main_v29_apply]
  have hb : idx_main_v29 (idx_main_v30 (ix2 r c)) = ix1 c := by
    funext a; match a with | ⟨0, _⟩ => rfl
  rw [hb, ← row_state, ← state_eq]
  exact dense X (val_main_v21 (F := Ideal) X H G Wg bg Wr br) _ Wo bo r c _ _
    (fun k => by funext a; match a with | ⟨0, _⟩ => rfl | ⟨1, _⟩ => rfl)
    (fun k => by funext a; match a with | ⟨0, _⟩ => rfl | ⟨1, _⟩ => rfl)

/-- The reference's first result is the output over the batch. -/
theorem out_eq : val_main_v38 (F := Ideal) X H G Wg bg Wr br Wy by_ Wo bo = outArr X H G Wg bg Wr br Wy by_ Wo bo := by
  funext i
  obtain ⟨r, c, rfl⟩ : ∃ r c, i = ix2 r c := ⟨i 0, i 1, eq_ix2 i⟩
  rw [val_main_v38_apply, val_main_v27_apply, pre_y, val_main_v37_apply, val_main_v36_apply, val_main_cst_3_apply,
    val_main_v35_apply, val_main_v34_apply, val_main_cst_2_apply, val_main_v33_apply, val_main_v32_apply, pre_o]
  show Ideal.tanh _ * Ideal.div (Ideal.ofBits .f32 0x3F800000#32) (Ideal.ofBits .f32 0x3F800000#32 + Ideal.exp (- _)) = _
  rw [one_word]
  rfl

end Cert.ReferenceIdeal.Rows

end
-- ==== Proof.lean ====
/-
  The certificate of the fused gated recurrent cell against its jnp reference, over the extended reals.

  Both programs compute, for each of the 16384 batch rows, the gated cell of GatedCell.lean:
  with a = layer_g [x | h] and r = layer_r [x | h],
      λ = max (tanh (a − g)) 0,   Θ = [λ > 0],   h' = λ · tanh r + (1 − λ) · h,
      y = tanh (layer_y [x | h']) · logistic (layer_o [x | h']).
  The kernel tiles the batch in 64 blocks of 256 rows, splits each weight matrix on the host into the
  rows that meet x and the rows that meet the latent part, and adds the two matrix products; the
  reference joins [x | h] and takes one product over the 1536 joined entries. At the ideal values a
  change of float format is the identity and a sum over 1536 entries is the sum over the first 512 plus
  the sum over the last 1024, so the two are one function of the arguments (no finiteness is used).

  Arrays.lean reads the kernel's three result arrays as the cell's whole-array functions of the arguments
  (over BodyRows.lean, the body's stored values at an entry); RefRows.lean reads the reference's three
  results as the same functions. The frames of the two kernel programs are the generated ones, the
  reference's frame is its generated run with the results dropped, and the idealization rewrote nothing.
-/
import proofs.«144852_j84018150245162_1_alg».proof.Defs
import proofs.«144852_j84018150245162_1_alg».proof.Proof.Gen.Kernel
import proofs.«144852_j84018150245162_1_alg».proof.Proof.Gen.Kernel.Skeleton
import proofs.«144852_j84018150245162_1_alg».proof.Proof.Gen.Kernel.Launch
import proofs.«144852_j84018150245162_1_alg».proof.Proof.Gen.Kernel.Points
import proofs.«144852_j84018150245162_1_alg».proof.Proof.Gen.Kernel.Frame
import proofs.«144852_j84018150245162_1_alg».proof.Proof.Gen.KernelIdeal
import proofs.«144852_j84018150245162_1_alg».proof.Proof.Gen.KernelIdeal.Skeleton
import proofs.«144852_j84018150245162_1_alg».proof.Proof.Gen.KernelIdeal.Launch
import proofs.«144852_j84018150245162_1_alg».proof.Proof.Gen.KernelIdeal.Points
import proofs.«144852_j84018150245162_1_alg».proof.Proof.Gen.KernelIdeal.Frame
import proofs.«144852_j84018150245162_1_alg».proof.Proof.Gen.ReferenceIdeal
import proofs.«144852_j84018150245162_1_alg».proof.Proof.Gen.Pre_finite_inputs
import proofs.«144852_j84018150245162_1_alg».proof.Proof.Gen.KernelIdeal.Value
import proofs.«144852_j84018150245162_1_alg».proof.Proof.Gen.ReferenceIdeal.Run
import proofs.«144852_j84018150245162_1_alg».proof.Proof.Gen.ReferenceIdeal.Read
import proofs.«144852_j84018150245162_1_alg».proof.Proof.GatedCell
import proofs.«144852_j84018150245162_1_alg».proof.Proof.BodyRows
import proofs.«144852_j84018150245162_1_alg».proof.Proof.Arrays
import proofs.«144852_j84018150245162_1_alg».proof.Proof.RefRows
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, the three results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The ideal pass rewrote no operation of the kernel. -/
theorem preserves : Cert.preserves_Kernel_KernelIdeal := trivial

/-- From memories that agree on the arguments, the kernel's three result arrays and the reference's three
    results are the gated cell's output, new latent state and gate indicator over the batch. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2⟩
  · rw [Cert.ReferenceIdeal.Read.val_main_v38_eq, Cert.ReferenceIdeal.Rows.out_eq, a0, a1, a2, a3, a4, a5, a6, a7, a8, a9, a10]
  · rw [Cert.ReferenceIdeal.Read.val_main_v21_eq, Cert.ReferenceIdeal.Rows.state_eq, a0, a1, a2, a3, a4, a5, a6]
  · rw [Cert.ReferenceIdeal.Read.val_main_v11_eq, Cert.ReferenceIdeal.Rows.indicator_eq, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
